-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x2 .f32) (main_arg12 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S1x2 : Shape := ⟨2, ![1, 2]⟩
abbrev S100000x2 : Shape := ⟨2, ![100000, 2]⟩
abbrev S2000x2 : Shape := ⟨2, ![2000, 2]⟩

abbrev nBuf : Space → Nat
  | .hbm => 69
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S1x128, .f32⟩
  | .hbm, ⟨67, _⟩ => ⟨S1x2, .f32⟩
  | .hbm, ⟨68, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x2, .f32⟩
  | .local _ .vmem, ⟨19, _⟩ => ⟨S1x2, .f32⟩
  | .local _ .vmem, ⟨20, _⟩ => ⟨S2000x2, .f32⟩
  | .local _ .vmem, ⟨21, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x2.size a ≤ S128x2.size a
  hwx1_7 : ∀ i : grid1.Coords, EltTy.bits .f32 = 32 ∨ (Rect.block (s := S128x2) S128x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2.size a ≤ S1x2.size a
  hwx1_8 : ∀ i : grid1.Coords, EltTy.bits .f32 = 32 ∨ (Rect.block (s := S1x2) S1x2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x2.size a ≤ S100000x2.size a
  hwx1_9 : ∀ i : grid1.Coords, EltTy.bits .f32 = 32 ∨ (Rect.block (s := S100000x2) S2000x2.size (cc1_transform_9 i) (hinb1_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S2000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x2 : Shape := ⟨2, ![100000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_cst : Ref sig .tc := ⟨.hbm, 44, rfl⟩
abbrev main_call0_v0 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Spec.lean ====
/-
  What both programs compute, as functions of whole arrays over the extended reals.

  A GraphSAGE layer with mean aggregation sends a node-feature matrix X (one row per node) and the matrix A of the
  neighbours' means to  X·Wself + A·Wneigh + b.  Entry (r, j) of a product M·W is the sum over k of M[r,k]·W[k,j],
  so every entry of a layer's result depends on ONE row of X and of A only: a row block of the result is the same
  function of the matching row blocks of the operands (`dotRow_rows`, `layer_rows`, `head_rows`).  That is all a
  row-tiled computation needs to agree with the whole-array one; no law of arithmetic beyond reading a sum term by
  term is used, so nothing here asks the entries to be finite.

  `layer` is the first layer with its rectifier; `head` is the second layer followed by the two-layer classifier
  (affine, rectifier, affine into two columns).  The zero the rectifier compares with stays the 32-bit word it is
  printed as on both sides; it is never evaluated.
-/
import Idealize.ShloMosaic.PureOps.Ideal
import Idealize.ShloMosaic.Lib.ValueIdx

noncomputable section

namespace Cert.Sage

open Idealize.ShloMosaic Idealize.ShloMosaic.ValueIdx

/-- An R × C matrix of extended reals, indexed by the shape's multi-indices. -/
abbrev Mat (R C : Nat) : Type := FVec Ideal ⟨2, ![R, C]⟩ .f32

/-- The rectifier's zero, as its word. -/
abbrev zeroWord : EReal := Ideal.ofBits .f32 0x00000000#32

/-- Entry (r, j) of the product a·w. -/
def dotRow {R K C : Nat} (a : Mat R K) (w : Mat K C) (r : Fin R) (j : Fin C) : EReal :=
  ∑ k : Fin K, a (ix2 r k) * w (ix2 k j)

/-- Entry (r, j) of x·ws + a·wn + b, associated as both programs write it: the two products first, then the bias. -/
def affine2 {R K C : Nat} (x a : Mat R K) (ws wn : Mat K C) (b : Fin C → EReal) (r : Fin R) (j : Fin C) : EReal :=
  (dotRow x ws r j + dotRow a wn r j) + b j

/-- The first layer: relu (x·ws + a·wn + b). -/
def layer {R : Nat} (x a : Mat R 128) (ws wn : Mat 128 128) (b : Fin 128 → EReal) : Mat R 128 :=
  fun i => max (affine2 x a ws wn b (i 0) (i 1)) zeroWord

/-- The second layer's affine map as a matrix. -/
def affineMat {R : Nat} (x a : Mat R 128) (ws wn : Mat 128 128) (b : Fin 128 → EReal) : Mat R 128 :=
  fun i => affine2 x a ws wn b (i 0) (i 1)

/-- The classifier's hidden activations: relu (h·wc + bc). -/
def hidden {R : Nat} (h : Mat R 128) (wc : Mat 128 128) (bc : Fin 128 → EReal) : Mat R 128 :=
  fun i => max (dotRow h wc (i 0) (i 1) + bc (i 1)) zeroWord

/-- The second layer and the classifier: relu ((x·ws + a·wn + b)·wc1 + bc1)·wc2 + bc2. -/
def head {R : Nat} (x a : Mat R 128) (ws wn : Mat 128 128) (b : Fin 128 → EReal) (wc1 : Mat 128 128)
    (bc1 : Fin 128 → EReal) (wc2 : Mat 128 2) (bc2 : Fin 2 → EReal) : Mat R 2 :=
  fun i => dotRow (hidden (affineMat x a ws wn b) wc1 bc1) wc2 (i 0) (i 1) + bc2 (i 1)

theorem layer_ix2 {R : Nat} (x a : Mat R 128) (ws wn : Mat 128 128) (b : Fin 128 → EReal) (r : Fin R) (j : Fin 128) :
    layer x a ws wn b (ix2 r j) = max (affine2 x a ws wn b r j) zeroWord := rfl

theorem affineMat_ix2 {R : Nat} (x a : Mat R 128) (ws wn : Mat 128 128) (b : Fin 128 → EReal) (r : Fin R) (j : Fin 128) :
    affineMat x a ws wn b (ix2 r j) = affine2 x a ws wn b r j := rfl

theorem hidden_ix2 {R : Nat} (h : Mat R 128) (wc : Mat 128 128) (bc : Fin 128 → EReal) (r : Fin R) (j : Fin 128) :
    hidden h wc bc (ix2 r j) = max (dotRow h wc r j + bc j) zeroWord := rfl

theorem head_ix2 {R : Nat} (x a : Mat R 128) (ws wn : Mat 128 128) (b : Fin 128 → EReal) (wc1 : Mat 128 128)
    (bc1 : Fin 128 → EReal) (wc2 : Mat 128 2) (bc2 : Fin 2 → EReal) (r : Fin R) (j : Fin 2) :
    head x a ws wn b wc1 bc1 wc2 bc2 (ix2 r j) = dotRow (hidden (affineMat x a ws wn b) wc1 bc1) wc2 r j + bc2 j := rfl

/-! ## A row of the result depends on the same row of the left operands only -/

/-- Two left operands, possibly of different heights, that agree along a row give the same product entries there. -/
theorem dotRow_rows {R R' K C : Nat} (a : Mat R K) (a' : Mat R' K) (w : Mat K C) (r : Fin R) (r' : Fin R')
    (h : ∀ k : Fin K, a (ix2 r k) = a' (ix2 r' k)) (j : Fin C) : dotRow a w r j = dotRow a' w r' j := by
  unfold dotRow
  exact Finset.sum_congr rfl fun k _ => by rw [h k]

theorem affine2_rows {R R' K C : Nat} (x a : Mat R K) (x' a' : Mat R' K) (ws wn : Mat K C) (b : Fin C → EReal)
    (r : Fin R) (r' : Fin R') (hx : ∀ k : Fin K, x (ix2 r k) = x' (ix2 r' k)) (ha : ∀ k : Fin K, a (ix2 r k) = a' (ix2 r' k))
    (j : Fin C) : affine2 x a ws wn b r j = affine2 x' a' ws wn b r' j := by
  unfold affine2
  rw [dotRow_rows x x' ws r r' hx j, dotRow_rows a a' wn r r' ha j]

/-- The first layer, row by row. -/
theorem layer_rows {R R' : Nat} (x a : Mat R 128) (x' a' : Mat R' 128) (ws wn : Mat 128 128) (b : Fin 128 → EReal)
    (r : Fin R) (r' : Fin R') (hx : ∀ k : Fin 128, x (ix2 r k) = x' (ix2 r' k)) (ha : ∀ k : Fin 128, a (ix2 r k) = a' (ix2 r' k))
    (j : Fin 128) : layer x a ws wn b (ix2 r j) = layer x' a' ws wn b (ix2 r' j) := by
  rw [layer_ix2, layer_ix2, affine2_rows x a x' a' ws wn b r r' hx ha j]

/-- The second layer with the classifier, row by row. -/
theorem head_rows {R R' : Nat} (x a : Mat R 128) (x' a' : Mat R' 128) (ws wn : Mat 128 128) (b : Fin 128 → EReal)
    (wc1 : Mat 128 128) (bc1 : Fin 128 → EReal) (wc2 : Mat 128 2) (bc2 : Fin 2 → EReal)
    (r : Fin R) (r' : Fin R') (hx : ∀ k : Fin 128, x (ix2 r k) = x' (ix2 r' k)) (ha : ∀ k : Fin 128, a (ix2 r k) = a' (ix2 r' k))
    (j : Fin 2) : head x a ws wn b wc1 bc1 wc2 bc2 (ix2 r j) = head x' a' ws wn b wc1 bc1 wc2 bc2 (ix2 r' j) := by
  rw [head_ix2, head_ix2]
  refine congrArg (· + bc2 j) (dotRow_rows _ _ wc2 r r' (fun k => ?_) j)
  rw [hidden_ix2, hidden_ix2]
  refine congrArg (fun t => max (t + bc1 k) zeroWord) (dotRow_rows _ _ wc1 r r' (fun k' => ?_) k)
  rw [affineMat_ix2, affineMat_ix2, affine2_rows x a x' a' ws wn b r r' hx ha k']

end Cert.Sage

end
-- ==== Proof.BlockProduct.lean ====
/-
  A block's matrix product read at an entry.

  Inside a kernel body a row block l (2000 rows) meets a weight matrix r in one product accumulated into zeros.  Over the
  extended reals that product at (p, q) is the plain sum over k of l[p,k]·r[k,q] (`Cert.Sage.dotRow`): the accumulator's
  zero word is the real zero, and the contraction's one axis is re-indexed by its coordinate.  Two extents occur: 128
  output columns (the layers and the classifier's hidden map) and 2 (the classifier's output).
-/
import proofs.«179118_j27608049778854_1_alg».proof.Proof.Gen.KernelIdeal
import proofs.«179118_j27608049778854_1_alg».proof.Proof.Spec
import Idealize.ShloMosaic.PureOps.Ideal.Laws
import Idealize.ShloMosaic.Lib.ValueIdx

noncomputable section

namespace Cert.KernelIdeal.BlockProduct

open Cert.KernelIdeal Cert.KernelIdeal.Gen Idealize.ShloMosaic Idealize.ShloMosaic.ValueIdx

/-! ### The [2000,128] × [128,128] contraction -/

theorem lhs_wide_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_wide_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_wide_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_wide_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block's matrix product into a zero accumulator, read at (p, q): the sum over the contracted axis of the left
    operand's row p against the right operand's column q. -/
theorem matmul_wide_apply {φ₁ φ₂ : FTy} (l : FVec Ideal S2000x128 φ₁) (r : FVec Ideal S128x128 φ₂) (p : Fin 2000) (q : Fin 128) :
    FloatOps.matmul dot_S2000x128_S128x128_S2000x128_1_0_0_1_n_n none l r (constant S2000x128 .f32 0x00000000#32) (ix2 p q)
      = Cert.Sage.dotRow (K := 128) l r p q := by
  rw [Ideal.matmul_constant_zero_apply, ← Equiv.sum_comp (ValueIdx.contrEquiv1 dot_S2000x128_S128x128_S2000x128_1_0_0_1_n_n 128 rfl rfl).symm]
  unfold Cert.Sage.dotRow
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_wide_0 _ _
    | ⟨1, _⟩ => exact (lhs_wide_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_wide_0 _ _).trans hk
    | ⟨1, _⟩ => exact rhs_wide_1 _ _)
  rw [el, er]

/-! ### The [2000,128] × [128,2] contraction -/

theorem lhs_narrow_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhs_narrow_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhs_narrow_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhs_narrow_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The block's matrix product into a zero accumulator, read at (p, q): the sum over the contracted axis of the left
    operand's row p against the right operand's column q. -/
theorem matmul_narrow_apply {φ₁ φ₂ : FTy} (l : FVec Ideal S2000x128 φ₁) (r : FVec Ideal S128x2 φ₂) (p : Fin 2000) (q : Fin 2) :
    FloatOps.matmul dot_S2000x128_S128x2_S2000x2_1_0_0_1_n_n none l r (constant S2000x2 .f32 0x00000000#32) (ix2 p q)
      = Cert.Sage.dotRow (K := 128) l r p q := by
  rw [Ideal.matmul_constant_zero_apply, ← Equiv.sum_comp (ValueIdx.contrEquiv1 dot_S2000x128_S128x2_S2000x2_1_0_0_1_n_n 128 rfl rfl).symm]
  unfold Cert.Sage.dotRow
  refine Finset.sum_congr rfl fun k _ => ?_
  have hk := ValueIdx.contrEquiv1_symm_val dot_S2000x128_S128x2_S2000x2_1_0_0_1_n_n 128 rfl rfl k
  have el : dot_S2000x128_S128x2_S2000x2_1_0_0_1_n_n.lhsIdx (ix2 p q) ((ValueIdx.contrEquiv1 dot_S2000x128_S128x2_S2000x2_1_0_0_1_n_n 128 rfl rfl).symm k) = ix2 p k := funext fun a => Fin.ext (by
    match a with
    | ⟨0, _⟩ => exact lhs_narrow_0 _ _
    | ⟨1, _⟩ => exact (lhs_narrow_1 _ _).trans hk)
  have er : dot_S2000x128_S128x2_S2000x2_1_0_0_1_n_n.rhsIdx (ix2 p q) ((ValueIdx.contrEquiv1 dot_S2000x128_S128x2_S2000x2_1_0_0_1_n_n 128 rfl rfl).symm k) = ix2 k q := funext fun a => Fin.ext (by
    match a with
    | ⟨0, _⟩ => exact (rhs_narrow_0 _ _).trans hk
    | ⟨1, _⟩ => exact rhs_narrow_1 _ _)
  rw [el, er]

end Cert.KernelIdeal.BlockProduct

end
-- ==== Proof.BlockValue.lean ====
/-
  What one grid point computes, as a function of its row blocks.

  Each kernel body loads its operands' blocks whole, narrows them to a 16-bit format (the identity over the extended
  reals), multiplies, adds the bias row broadcast down the block, rectifies, and stores one whole block.  Read entry by
  entry, the first body is the layer map `Cert.Sage.layer` of its blocks and the second the map `Cert.Sage.head`: each
  product is the plain row-by-column sum (`BlockProduct`), the bias enters at its column, and the rectifier's zero is the
  same word on both sides.
-/
import proofs.«179118_j27608049778854_1_alg».proof.Proof.Gen.KernelIdeal.Skeleton
import proofs.«179118_j27608049778854_1_alg».proof.Proof.BlockProduct
import Idealize.ShloMosaic.Lib.Pipeline.Value
import Idealize.ShloMosaic.Lib.ValueLayout

noncomputable section

namespace Cert.KernelIdeal.BlockValue

open Cert.KernelIdeal Cert.KernelIdeal.Gen Cert.KernelIdeal.BlockProduct Cert.Sage
open Idealize.ShloMosaic Idealize.ShloMosaic.ValueIdx

/-- The one row of a [1, C] array, as a function of the column. -/
abbrev rowOf {C : Nat} (v : FVec Ideal ⟨2, ![1, C]⟩ .f32) : Fin C → EReal := fun j => v (ix2 (0 : Fin 1) j)

/-- A bias row cast to its own shape and broadcast down a block of `a` rows reads, at (p, q), its entry at column q. -/
theorem bias_apply {a b : Nat} (v : FVec Ideal ⟨2, ![1, b]⟩ .f32) (h : (⟨2, ![1, b]⟩ : Shape).ShapeCasts ⟨2, ![1, b]⟩)
    (h' : (⟨2, ![1, b]⟩ : Shape).Broadcasts ⟨2, ![a, b]⟩) (p : Fin a) (q : Fin b) :
    broadcastTo ⟨2, ![a, b]⟩ (shapeCast ⟨2, ![1, b]⟩ v h) h' (ix2 p q) = rowOf v q := by
  rw [broadcastTo_1b_ab_apply, shapeCast_self]

/-- The first body's stored block is the layer map of its operand blocks. -/
theorem layer_block (x0 x1 : Vec Ideal S2000x128 .f32) (x2 x3 : Vec Ideal S128x128 .f32) (x4 : Vec Ideal S1x128 .f32) :
    k0_pay1 (F := Ideal) x0 x1 x2 x3 x4 = layer (R := 2000) x0 x1 x2 x3 (rowOf x4) := by
  funext y
  obtain ⟨p, q, rfl⟩ : ∃ (p : Fin 2000) (q : Fin 128), y = ix2 p q := ⟨y 0, y 1, eq_ix2 y⟩
  rw [layer_ix2]
  unfold k0_pay1 affine2
  simp only [maximumf_apply, addf_apply, broadcast_apply, matmul]
  rw [matmul_wide_apply, matmul_wide_apply, bias_apply, shapeCast_self]
  rfl

/-- The second body's stored block is the second layer and the classifier of its operand blocks. -/
theorem head_block (x0 x1 : Vec Ideal S2000x128 .f32) (x2 x3 : Vec Ideal S128x128 .f32) (x4 : Vec Ideal S1x128 .f32)
    (x5 : Vec Ideal S128x128 .f32) (x6 : Vec Ideal S1x128 .f32) (x7 : Vec Ideal S128x2 .f32) (x8 : Vec Ideal S1x2 .f32) :
    k1_pay1 (F := Ideal) x0 x1 x2 x3 x4 x5 x6 x7 x8
      = head (R := 2000) x0 x1 x2 x3 (rowOf x4) x5 (rowOf x6) x7 (rowOf x8) := by
  funext y
  obtain ⟨p, q, rfl⟩ : ∃ (p : Fin 2000) (q : Fin 2), y = ix2 p q := ⟨y 0, y 1, eq_ix2 y⟩
  rw [head_ix2]
  unfold k1_pay1
  simp only [addf_apply, matmul]
  rw [matmul_narrow_apply, bias_apply]
  refine congrArg (· + rowOf x8 q) (dotRow_rows _ _ x7 p p (fun k => ?_) q)
  rw [hidden_ix2]
  show max (_ + _) _ = _
  simp only [maximumf_apply, addf_apply, broadcast_apply, truncf_apply]
  rw [matmul_wide_apply, bias_apply]
  refine congrArg (fun t => max (t + rowOf x6 k) zeroWord) (dotRow_rows _ _ x5 p p (fun k' => ?_) k)
  rw [affineMat_ix2]
  unfold affine2
  simp only [addf_apply, truncf_apply]
  rw [matmul_wide_apply, matmul_wide_apply, bias_apply, shapeCast_self, shapeCast_self]
  rfl

end Cert.KernelIdeal.BlockValue

end
-- ==== Proof.BlockCoords.lean ====
/-
  One step shared by every block read.

  A window's block at a grid point embeds its local index y into the array coordinate by coordinate:
  coordinate a of the image is  (block index on axis a) × (block extent on axis a) + 1 × (y a).
  Two array reads agree as soon as their indices agree on both axes, and with the block indices known
  (as hypotheses in the context) each axis is linear arithmetic.  `block_coords w s0 s1 y0 y1 i0 i1` is that step for a
  rank-2 window `w` of block extents `s0` × `s1`: it closes a goal  X i = X i'  whose index i is the embedding of the
  local index (y0, y1) and whose index i' is (i0, i1), given the window's block indices at the point among the
  hypotheses.
-/
import Idealize.ShloMosaic.Lib.Pipeline

namespace Cert.Sage

open Lean in
/-- Both coordinates of a block's embedding, by arithmetic from the block indices in the context: the local
    coordinates `y0`, `y1` land on the array coordinates `i0`, `i1`. -/
macro "block_coords " w:term:max s0:term:max s1:term:max y0:term:max y1:term:max i0:term:max i1:term:max : tactic =>
  `(tactic| (refine congrArg _ (funext fun a => Fin.ext ?_); match a with | ⟨0, _⟩ => (show ($w).index _ (0 : Fin 2) * $s0 + 1 * $y0 = $i0; omega) | ⟨1, _⟩ => (show ($w).index _ (1 : Fin 2) * $s1 + 1 * $y1 = $i1; omega)))

end Cert.Sage
-- ==== Proof.LayerArray.lean ====
/-
  From row blocks to whole arrays, for the first region.

  The grid has 50 points; point t works on rows 2000·t … 2000·t + 1999.  The two row-tiled operands and the result
  share that block index, the weights and the bias row are fetched whole at every point.  So what point t writes back
  is rows 2000·t … of ONE whole-array function of the region's operands, the layer map `Cert.Sage.layer`: an entry of
  the layer map depends on its own row of the operands only (`layer_rows`).  The 50 blocks tile the 100000 rows (row r
  lies in block r / 2000), so after the region the result array is that function, everywhere.

  Everything is stated at a parameter V, the buffer contents when the region is entered.
-/
import proofs.«179118_j27608049778854_1_alg».proof.Proof.Gen.KernelIdeal.Frame
import proofs.«179118_j27608049778854_1_alg».proof.Proof.BlockValue
import proofs.«179118_j27608049778854_1_alg».proof.Proof.BlockCoords
import Idealize.ShloMosaic.Lib.Pipeline.Value

noncomputable section

namespace Cert.KernelIdeal.LayerArray

open Cert.KernelIdeal Cert.KernelIdeal.Gen Cert.KernelIdeal.BlockValue Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-tiled windows are at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer map of the region's operand arrays as the region finds them. -/
abbrev result (c : Dev nD) : Buf (Elt Ideal) ((c : Thread nD τ).loc main_v20) :=
  layer (R := 100000) (V c main_arg0) (V c main_v18) (V c main_arg3) (V c main_arg4) (rowOf (V c main_v19))

/-- The self-weights' block is the whole weight matrix. -/
theorem wself_block (c : Dev nD) (t : Fin cfg0.N) : (iblk0 V c 2 t : Vec Ideal S128x128 .f32) = V c main_arg3 := by
  obtain ⟨-, -, -, -, e0, e1, -⟩ := idx_facts t
  funext y
  show V c main_arg3 (((cfg0.win 2).blk t).view.emb y) = V c main_arg3 y
  block_coords win0_2 128 128 (y 0).val (y 1).val (y 0).val (y 1).val

/-- The neighbour-weights' block is the whole weight matrix. -/
theorem wneigh_block (c : Dev nD) (t : Fin cfg0.N) : (iblk0 V c 3 t : Vec Ideal S128x128 .f32) = V c main_arg4 := by
  obtain ⟨-, -, -, -, -, -, e0, e1, -⟩ := idx_facts t
  funext y
  show V c main_arg4 (((cfg0.win 3).blk t).view.emb y) = V c main_arg4 y
  block_coords win0_3 128 128 (y 0).val (y 1).val (y 0).val (y 1).val

/-- The bias row's block is the whole row. -/
theorem bias_block (c : Dev nD) (t : Fin cfg0.N) : (iblk0 V c 4 t : Vec Ideal S1x128 .f32) = V c main_v19 := by
  obtain ⟨-, -, -, -, -, -, -, -, e0, e1, -⟩ := idx_facts t
  funext y
  show V c main_v19 (((cfg0.win 4).blk t).view.emb y) = V c main_v19 y
  block_coords win0_4 1 128 (y 0).val (y 1).val (y 0).val (y 1).val

/-- Row p of the feature block at point t is row 2000·t + p of the feature array. -/
theorem x_block (c : Dev nD) (t : Fin cfg0.N) (p : Fin 2000) (k : Fin 128) (r : Fin 100000) (hr : r.val = t.val * 2000 + p.val) :
    (iblk0 V c 0 t : Vec Ideal S2000x128 .f32) (ix2 p k) = (V c main_arg0 : Vec Ideal S100000x128 .f32) (ix2 r k) := by
  obtain ⟨e0, e1, -⟩ := idx_facts t
  show V c main_arg0 (((cfg0.win 0).blk t).view.emb (ix2 p k)) = V c main_arg0 (ix2 r k)
  block_coords win0_0 2000 128 p.val k.val r.val k.val

/-- Row p of the neighbour-mean block at point t is row 2000·t + p of that array. -/
theorem a_block (c : Dev nD) (t : Fin cfg0.N) (p : Fin 2000) (k : Fin 128) (r : Fin 100000) (hr : r.val = t.val * 2000 + p.val) :
    (iblk0 V c 1 t : Vec Ideal S2000x128 .f32) (ix2 p k) = (V c main_v18 : Vec Ideal S100000x128 .f32) (ix2 r k) := by
  obtain ⟨-, -, e0, e1, -⟩ := idx_facts t
  show V c main_v18 (((cfg0.win 1).blk t).view.emb (ix2 p k)) = V c main_v18 (ix2 r k)
  block_coords win0_1 2000 128 p.val k.val r.val k.val

/-- What point t writes back is block t of the layer map of the whole operand arrays. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [layer_block, wself_block, wneigh_block, bias_block]
  obtain ⟨-, -, -, -, -, -, -, -, -, -, e0, e1⟩ := idx_facts t
  funext y
  obtain ⟨p, q, rfl⟩ : ∃ (p : Fin 2000) (q : Fin 128), y = ix2 p q := ⟨y 0, y 1, eq_ix2 y⟩
  show layer (R := 2000) (iblk0 V c 0 t) (iblk0 V c 1 t) (V c main_arg3) (V c main_arg4) (rowOf (V c main_v19)) (ix2 p q)
      = result V c (((cfg0.win 5).blk t).view.emb (ix2 p q))
  have hp : p.val < 2000 := p.isLt
  have ht : t.val < 50 := t.isLt
  have he : ((cfg0.win 5).blk t).view.emb (ix2 p q) = ix2 (⟨t.val * 2000 + p.val, by omega⟩ : Fin 100000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [he]
  exact layer_rows _ _ _ _ _ _ _ p _ (fun k => x_block V c t p k _ rfl) (fun k => a_block V c t p k _ rfl) q

/-- An index of the result array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Every row lies in the block of the point numbered by its quotient by 2000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 2000, by show (i 0).val / 2000 < 50; omega⟩
  have htv : t.val = (i 0).val / 2000 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- After the region the result array is the layer map of the operand arrays. -/
theorem final (c : Dev nD) : (dat0 V c).arrAt 5 cfg0.N = result V c :=
  (dat0 V c).arrAt_eq_of_cover 5 (result V c) (fun t _ => flushed_eq V c t) cover

end Cert.KernelIdeal.LayerArray

end
-- ==== Proof.HeadArray.lean ====
/-
  From row blocks to whole arrays, for the second region.

  As in the first region the grid's 50 points each take 2000 rows: the first layer's result and its neighbour means
  are tiled by rows, the second layer's two weight matrices and bias, the classifier's two weight matrices and two
  biases are fetched whole, and the two-column result is tiled by rows.  Point t writes back rows 2000·t … of the
  whole-array map `Cert.Sage.head` of the region's operands (an entry of it depends on its own row of the two tiled
  operands only: `head_rows`), and the 50 blocks tile the rows; so after the region the result array is that map.

  Everything is stated at a parameter V, the buffer contents when the region is entered.
-/
import proofs.«179118_j27608049778854_1_alg».proof.Proof.Gen.KernelIdeal.Frame
import proofs.«179118_j27608049778854_1_alg».proof.Proof.BlockValue
import proofs.«179118_j27608049778854_1_alg».proof.Proof.BlockCoords
import Idealize.ShloMosaic.Lib.Pipeline.Value

noncomputable section

namespace Cert.KernelIdeal.HeadArray

open Cert.KernelIdeal Cert.KernelIdeal.Gen Cert.KernelIdeal.BlockValue Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-tiled windows are at block (t, 0), the others at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The second layer and the classifier of the region's operand arrays as the region finds them. -/
abbrev result (c : Dev nD) : Buf (Elt Ideal) ((c : Thread nD τ).loc main_v43) :=
  head (R := 100000) (V c main_v20) (V c main_v39) (V c main_arg6) (V c main_arg7) (rowOf (V c main_v40))
    (V c main_arg9) (rowOf (V c main_v41)) (V c main_arg11) (rowOf (V c main_v42))

/-- The self-weights' block is the whole weight matrix. -/
theorem wself_block (c : Dev nD) (t : Fin cfg1.N) : (iblk1 V c 2 t : Vec Ideal S128x128 .f32) = V c main_arg6 := by
  obtain ⟨-, -, -, -, e0, e1, -⟩ := idx_facts t
  funext y
  show V c main_arg6 (((cfg1.win 2).blk t).view.emb y) = V c main_arg6 y
  block_coords win1_2 128 128 (y 0).val (y 1).val (y 0).val (y 1).val

/-- The neighbour-weights' block is the whole weight matrix. -/
theorem wneigh_block (c : Dev nD) (t : Fin cfg1.N) : (iblk1 V c 3 t : Vec Ideal S128x128 .f32) = V c main_arg7 := by
  obtain ⟨-, -, -, -, -, -, e0, e1, -⟩ := idx_facts t
  funext y
  show V c main_arg7 (((cfg1.win 3).blk t).view.emb y) = V c main_arg7 y
  block_coords win1_3 128 128 (y 0).val (y 1).val (y 0).val (y 1).val

/-- The layer's bias row's block is the whole row. -/
theorem bias_block (c : Dev nD) (t : Fin cfg1.N) : (iblk1 V c 4 t : Vec Ideal S1x128 .f32) = V c main_v40 := by
  obtain ⟨-, -, -, -, -, -, -, -, e0, e1, -⟩ := idx_facts t
  funext y
  show V c main_v40 (((cfg1.win 4).blk t).view.emb y) = V c main_v40 y
  block_coords win1_4 1 128 (y 0).val (y 1).val (y 0).val (y 1).val

/-- The classifier's hidden weights' block is the whole matrix. -/
theorem whid_block (c : Dev nD) (t : Fin cfg1.N) : (iblk1 V c 5 t : Vec Ideal S128x128 .f32) = V c main_arg9 := by
  obtain ⟨-, -, -, -, -, -, -, -, -, -, e0, e1, -⟩ := idx_facts t
  funext y
  show V c main_arg9 (((cfg1.win 5).blk t).view.emb y) = V c main_arg9 y
  block_coords win1_5 128 128 (y 0).val (y 1).val (y 0).val (y 1).val

/-- The classifier's hidden bias row's block is the whole row. -/
theorem bhid_block (c : Dev nD) (t : Fin cfg1.N) : (iblk1 V c 6 t : Vec Ideal S1x128 .f32) = V c main_v41 := by
  obtain ⟨-, -, -, -, -, -, -, -, -, -, -, -, e0, e1, -⟩ := idx_facts t
  funext y
  show V c main_v41 (((cfg1.win 6).blk t).view.emb y) = V c main_v41 y
  block_coords win1_6 1 128 (y 0).val (y 1).val (y 0).val (y 1).val

/-- The classifier's output weights' block is the whole matrix. -/
theorem wout_block (c : Dev nD) (t : Fin cfg1.N) : (iblk1 V c 7 t : Vec Ideal S128x2 .f32) = V c main_arg11 := by
  obtain ⟨-, -, -, -, -, -, -, -, -, -, -, -, -, -, e0, e1, -⟩ := idx_facts t
  funext y
  show V c main_arg11 (((cfg1.win 7).blk t).view.emb y) = V c main_arg11 y
  block_coords win1_7 128 2 (y 0).val (y 1).val (y 0).val (y 1).val

/-- The classifier's output bias row's block is the whole row. -/
theorem bout_block (c : Dev nD) (t : Fin cfg1.N) : (iblk1 V c 8 t : Vec Ideal S1x2 .f32) = V c main_v42 := by
  obtain ⟨-, -, -, -, -, -, -, -, -, -, -, -, -, -, -, -, e0, e1, -⟩ := idx_facts t
  funext y
  show V c main_v42 (((cfg1.win 8).blk t).view.emb y) = V c main_v42 y
  block_coords win1_8 1 2 (y 0).val (y 1).val (y 0).val (y 1).val

/-- Row p of the first layer's block at point t is row 2000·t + p of that array. -/
theorem h_block (c : Dev nD) (t : Fin cfg1.N) (p : Fin 2000) (k : Fin 128) (r : Fin 100000) (hr : r.val = t.val * 2000 + p.val) :
    (iblk1 V c 0 t : Vec Ideal S2000x128 .f32) (ix2 p k) = (V c main_v20 : Vec Ideal S100000x128 .f32) (ix2 r k) := by
  obtain ⟨e0, e1, -⟩ := idx_facts t
  show V c main_v20 (((cfg1.win 0).blk t).view.emb (ix2 p k)) = V c main_v20 (ix2 r k)
  block_coords win1_0 2000 128 p.val k.val r.val k.val

/-- Row p of the neighbour-mean block at point t is row 2000·t + p of that array. -/
theorem a_block (c : Dev nD) (t : Fin cfg1.N) (p : Fin 2000) (k : Fin 128) (r : Fin 100000) (hr : r.val = t.val * 2000 + p.val) :
    (iblk1 V c 1 t : Vec Ideal S2000x128 .f32) (ix2 p k) = (V c main_v39 : Vec Ideal S100000x128 .f32) (ix2 r k) := by
  obtain ⟨-, -, e0, e1, -⟩ := idx_facts t
  show V c main_v39 (((cfg1.win 1).blk t).view.emb (ix2 p k)) = V c main_v39 (ix2 r k)
  block_coords win1_1 2000 128 p.val k.val r.val k.val

/-- What point t writes back is block t of the whole-array map of the operand arrays. -/
theorem flushed_eq (c : Dev nD) (t : Fin cfg1.N) :
    (dat1 V c).flushed 9 t = ((cfg1.win 9).blk t).view.read (Elt Ideal) (result V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S1x128) hz,
    View.ld_unit_zero (S := S128x2) hz, View.ld_unit_zero (S := S1x2) hz]
  rw [head_block, wself_block, wneigh_block, bias_block, whid_block, bhid_block, wout_block, bout_block]
  obtain ⟨-, -, -, -, -, -, -, -, -, -, -, -, -, -, -, -, -, -, e0, e1⟩ := idx_facts t
  funext y
  obtain ⟨p, q, rfl⟩ : ∃ (p : Fin 2000) (q : Fin 2), y = ix2 p q := ⟨y 0, y 1, eq_ix2 y⟩
  show head (R := 2000) (iblk1 V c 0 t) (iblk1 V c 1 t) (V c main_arg6) (V c main_arg7) (rowOf (V c main_v40))
        (V c main_arg9) (rowOf (V c main_v41)) (V c main_arg11) (rowOf (V c main_v42)) (ix2 p q)
      = result V c (((cfg1.win 9).blk t).view.emb (ix2 p q))
  have hp : p.val < 2000 := p.isLt
  have ht : t.val < 50 := t.isLt
  have he : ((cfg1.win 9).blk t).view.emb (ix2 p q) = ix2 (⟨t.val * 2000 + p.val, by omega⟩ : Fin 100000) q := by
    funext a; apply Fin.ext
    match a with
    | ⟨0, _⟩ => show win1_9.index t (0 : Fin 2) * 2000 + 1 * p.val = t.val * 2000 + p.val; omega
    | ⟨1, _⟩ => show win1_9.index t (1 : Fin 2) * 2 + 1 * q.val = q.val; omega
  rw [he]
  exact head_rows _ _ _ _ _ _ _ _ _ _ _ p _ (fun k => h_block V c t p k _ rfl) (fun k => a_block V c t p k _ rfl) q

/-- An index of the result array is in point t's block iff each coordinate is in the block's range on its axis. -/
theorem mem_blk (t : Fin cfg1.N) (i : S100000x2.Idx) :
    i ∈ ((cfg1.win 9).blk t).view.set ↔ ∀ a : Fin 2, win1_9.index t a * S2000x2.size a ≤ (i a).val ∧ (i a).val < win1_9.index t a * S2000x2.size a + S2000x2.size a := by
  show i ∈ ((View.whole main_v43).slice (win1_9.rect t)).set ↔ _
  rw [View.set_slice_whole, Rect.mem_set_unit]
  exact Iff.rfl

/-- Every row lies in the block of the point numbered by its quotient by 2000. -/
theorem cover (i : S100000x2.Idx) : ∃ t : Fin cfg1.N, (cfg1.win 9).flush t = true ∧ i ∈ ((cfg1.win 9).blk t).view.set := by
  have hi0 : (i 0).val < 100000 := (i 0).isLt
  have hi1 : (i 1).val < 2 := (i 1).isLt
  let t : Fin cfg1.N := ⟨(i 0).val / 2000, by show (i 0).val / 2000 < 50; omega⟩
  have htv : t.val = (i 0).val / 2000 := rfl
  obtain ⟨-, -, -, -, -, -, -, -, -, -, -, -, -, -, -, -, -, -, e0, e1⟩ := idx_facts t
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 2 ≤ (i 1).val ∧ (i 1).val < win1_9.index t (1 : Fin 2) * 2 + 2; omega

/-- After the region the result array is the second layer and the classifier of the operand arrays. -/
theorem final (c : Dev nD) : (dat1 V c).arrAt 9 cfg1.N = result V c :=
  (dat1 V c).arrAt_eq_of_cover 9 (result V c) (fun t _ => flushed_eq V c t) cover

end Cert.KernelIdeal.HeadArray

end
-- ==== Proof.RefStages.lean ====
/-
  The reference, stage by stage, as the same whole-array maps.

  The reference computes on whole arrays: a matrix product is one contraction, a bias is broadcast from its vector,
  the rectifier is a maximum with a broadcast zero.  Read at an entry (r, j) each stage is what `Cert.Sage` names:
  the first layer's result is `layer` of the features and of the neighbour means; the second layer's affine map is
  `affineMat` of the first layer's result and of ITS neighbour means; the classifier's hidden activations are
  `hidden` of that; and the result is their product with the output weights plus the output bias, which together is
  `head`.  The neighbour means stay the opaque stage they are (a gather, two scatter-adds, a maximum, a quotient):
  both programs apply that same chain, so it is never opened.
-/
import proofs.«179118_j27608049778854_1_alg».proof.Proof.Gen.ReferenceIdeal.Read
import proofs.«179118_j27608049778854_1_alg».proof.Proof.Spec

noncomputable section

namespace Cert.ReferenceIdeal.Stages

open Cert.ReferenceIdeal Cert.ReferenceIdeal.Gen Cert.ReferenceIdeal.Read Cert.Sage
open Idealize.ShloMosaic Idealize.ShloMosaic.ValueIdx

/-- A vector of length C as a function of its coordinate. -/
abbrev vecOf {C : Nat} (v : FVec Ideal ⟨1, ![C]⟩ .f32) : Fin C → EReal := fun j => v (ix1 j)

/-! ## The stages' index maps at an entry (r, j) -/

theorem lidx19 (r : Fin 100000) (j k : Fin 128) : lidx_main_v19 (ix2 r j) k = ix2 r k :=
  funext fun a => Fin.ext (by match a with | ⟨0, _⟩ => rfl | ⟨1, _⟩ => rfl)
theorem ridx19 (r : Fin 100000) (j k : Fin 128) : ridx_main_v19 (ix2 r j) k = ix2 k j :=
  funext fun a => Fin.ext (by match a with | ⟨0, _⟩ => rfl | ⟨1, _⟩ => rfl)
theorem lidx20 (r : Fin 100000) (j k : Fin 128) : lidx_main_v20 (ix2 r j) k = ix2 r k :=
  funext fun a => Fin.ext (by match a with | ⟨0, _⟩ => rfl | ⟨1, _⟩ => rfl)
theorem ridx20 (r : Fin 100000) (j k : Fin 128) : ridx_main_v20 (ix2 r j) k = ix2 k j :=
  funext fun a => Fin.ext (by match a with | ⟨0, _⟩ => rfl | ⟨1, _⟩ => rfl)
theorem bidx23 (r : Fin 100000) (j : Fin 128) : idx_main_v22 (idx_main_v23 (ix2 r j)) = ix1 j :=
  funext fun a => Fin.ext (by match a with | ⟨0, _⟩ => rfl)
theorem lidx45 (r : Fin 100000) (j k : Fin 128) : lidx_main_v45 (ix2 r j) k = ix2 r k :=
  funext fun a => Fin.ext (by match a with | ⟨0, _⟩ => rfl | ⟨1, _⟩ => rfl)
theorem ridx45 (r : Fin 100000) (j k : Fin 128) : ridx_main_v45 (ix2 r j) k = ix2 k j :=
  funext fun a => Fin.ext (by match a with | ⟨0, _⟩ => rfl | ⟨1, _⟩ => rfl)
theorem lidx46 (r : Fin 100000) (j k : Fin 128) : lidx_main_v46 (ix2 r j) k = ix2 r k :=
  funext fun a => Fin.ext (by match a with | ⟨0, _⟩ => rfl | ⟨1, _⟩ => rfl)
theorem ridx46 (r : Fin 100000) (j k : Fin 128) : ridx_main_v46 (ix2 r j) k = ix2 k j :=
  funext fun a => Fin.ext (by match a with | ⟨0, _⟩ => rfl | ⟨1, _⟩ => rfl)
theorem bidx49 (r : Fin 100000) (j : Fin 128) : idx_main_v48 (idx_main_v49 (ix2 r j)) = ix1 j :=
  funext fun a => Fin.ext (by match a with | ⟨0, _⟩ => rfl)
theorem lidx51 (r : Fin 100000) (j k : Fin 128) : lidx_main_v51 (ix2 r j) k = ix2 r k :=
  funext fun a => Fin.ext (by match a with | ⟨0, _⟩ => rfl | ⟨1, _⟩ => rfl)
theorem ridx51 (r : Fin 100000) (j k : Fin 128) : ridx_main_v51 (ix2 r j) k = ix2 k j :=
  funext fun a => Fin.ext (by match a with | ⟨0, _⟩ => rfl | ⟨1, _⟩ => rfl)
theorem bidx53 (r : Fin 100000) (j : Fin 128) : idx_main_v52 (idx_main_v53 (ix2 r j)) = ix1 j :=
  funext fun a => Fin.ext (by match a with | ⟨0, _⟩ => rfl)
theorem lidx56 (r : Fin 100000) (j : Fin 2) (k : Fin 128) : lidx_main_v56 (ix2 r j) k = ix2 r k :=
  funext fun a => Fin.ext (by match a with | ⟨0, _⟩ => rfl | ⟨1, _⟩ => rfl)
theorem ridx56 (r : Fin 100000) (j : Fin 2) (k : Fin 128) : ridx_main_v56 (ix2 r j) k = ix2 k j :=
  funext fun a => Fin.ext (by match a with | ⟨0, _⟩ => rfl | ⟨1, _⟩ => rfl)
theorem bidx58 (r : Fin 100000) (j : Fin 2) : idx_main_v57 (idx_main_v58 (ix2 r j)) = ix1 j :=
  funext fun a => Fin.ext (by match a with | ⟨0, _⟩ => rfl)

/-! ## The stages -/

/-- The first layer's result is `layer` of the features and the neighbour means. -/
theorem layer_stage (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) :
    val_main_v25 (F := Ideal) x0 x1 x2 x3 x4 x5
      = layer (R := 100000) x0 (val_main_v18 (F := Ideal) x0 x1 x2) x3 x4 (vecOf x5) := by
  funext i
  obtain ⟨r, j, rfl⟩ : ∃ (r : Fin 100000) (j : Fin 128), i = ix2 r j := ⟨i 0, i 1, eq_ix2 i⟩
  rw [layer_ix2, val_main_v25_apply, val_main_v24_apply, val_main_v21_apply, val_main_v19_apply, val_main_v20_apply,
    val_main_v23_apply, val_main_v22_apply, val_main_call0_v0_apply, val_main_call0_cst_apply]
  simp only [lidx19, ridx19, lidx20, ridx20, bidx23]
  rfl

/-- The second aggregation is the first one's chain applied to the first layer's result. -/
theorem means_stage (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) :
    val_main_v44 (F := Ideal) x0 x1 x2 x3 x4 x5
      = val_main_v18 (F := Ideal) (val_main_v25 (F := Ideal) x0 x1 x2 x3 x4 x5) x1 x2 := by
  simp only [val_main_v44, val_main_v43, val_main_v42, val_main_v41, val_main_v40, val_main_cst_9, val_main_v39, val_main_v38,
    val_main_v37, val_main_cst_8, val_main_v36, val_main_cst_7, val_main_v35, val_main_v34, val_main_v33, val_main_cst_6,
    val_main_v32, val_main_v31, val_main_v30, val_main_v29, val_main_v28, val_main_c_5, val_main_v27, val_main_v26, val_main_c_4,
    val_main_v18, val_main_v17, val_main_v16, val_main_v15, val_main_v14, val_main_cst_3, val_main_v13, val_main_v12,
    val_main_v11, val_main_cst_2, val_main_v10, val_main_cst_1, val_main_v9, val_main_v8, val_main_v7, val_main_cst,
    val_main_v6, val_main_v5, val_main_v4, val_main_v3, val_main_v2, val_main_c_0, val_main_v1, val_main_v0, val_main_c]

/-- The second layer's affine map is `affineMat` of the first layer's result and its neighbour means. -/
theorem affine_stage (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v50 (F := Ideal) x0 x1 x2 x3 x4 x5 x6 x7 x8
      = affineMat (R := 100000) (val_main_v25 (F := Ideal) x0 x1 x2 x3 x4 x5) (val_main_v44 (F := Ideal) x0 x1 x2 x3 x4 x5) x6 x7 (vecOf x8) := by
  funext i
  obtain ⟨r, j, rfl⟩ : ∃ (r : Fin 100000) (j : Fin 128), i = ix2 r j := ⟨i 0, i 1, eq_ix2 i⟩
  rw [affineMat_ix2, val_main_v50_apply, val_main_v47_apply, val_main_v45_apply, val_main_v46_apply,
    val_main_v49_apply, val_main_v48_apply]
  simp only [lidx45, ridx45, lidx46, ridx46, bidx49]
  rfl

/-- The classifier's hidden activations are `hidden` of the second layer's affine map. -/
theorem hidden_stage (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v55 (F := Ideal) x0 x1 x2 x3 x4 x5 x6 x7 x8 x9 x10
      = hidden (R := 100000) (val_main_v50 (F := Ideal) x0 x1 x2 x3 x4 x5 x6 x7 x8) x9 (vecOf x10) := by
  funext i
  obtain ⟨r, j, rfl⟩ : ∃ (r : Fin 100000) (j : Fin 128), i = ix2 r j := ⟨i 0, i 1, eq_ix2 i⟩
  rw [hidden_ix2, val_main_v55_apply, val_main_v54_apply, val_main_v51_apply, val_main_v53_apply, val_main_v52_apply,
    val_main_call1_v0_apply, val_main_call1_cst_apply]
  simp only [lidx51, ridx51, bidx53]
  rfl

/-- The reference's result is `head` of the first layer's result and its neighbour means. -/
theorem result_stage (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (x11 : (⟨S128x2, .f32⟩ : BufTy).Contents (Elt Ideal)) (x12 : (⟨S2, .f32⟩ : BufTy).Contents (Elt Ideal)) :
    val_main_v59 (F := Ideal) x0 x1 x2 x3 x4 x5 x6 x7 x8 x9 x10 x11 x12
      = head (R := 100000) (val_main_v25 (F := Ideal) x0 x1 x2 x3 x4 x5) (val_main_v44 (F := Ideal) x0 x1 x2 x3 x4 x5)
          x6 x7 (vecOf x8) x9 (vecOf x10) x11 (vecOf x12) := by
  funext i
  obtain ⟨r, j, rfl⟩ : ∃ (r : Fin 100000) (j : Fin 2), i = ix2 r j := ⟨i 0, i 1, eq_ix2 i⟩
  rw [head_ix2, val_main_v59_apply, val_main_v56_apply, val_main_v58_apply, val_main_v57_apply, hidden_stage, affine_stage]
  simp only [lidx56, ridx56, bidx58]
  rfl

/-- The reference's result as whole-array maps of its arguments: `head` of the first layer and of the aggregation
    stage applied to the first layer. -/
theorem whole (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (x11 : (⟨S128x2, .f32⟩ : BufTy).Contents (Elt Ideal)) (x12 : (⟨S2, .f32⟩ : BufTy).Contents (Elt Ideal)) :
    val_main_v59 (F := Ideal) x0 x1 x2 x3 x4 x5 x6 x7 x8 x9 x10 x11 x12
      = head (R := 100000) (layer (R := 100000) x0 (val_main_v18 (F := Ideal) x0 x1 x2) x3 x4 (vecOf x5))
          (val_main_v18 (F := Ideal) (layer (R := 100000) x0 (val_main_v18 (F := Ideal) x0 x1 x2) x3 x4 (vecOf x5)) x1 x2)
          x6 x7 (vecOf x8) x9 (vecOf x10) x11 (vecOf x12) := by
  rw [result_stage, means_stage, layer_stage]

end Cert.ReferenceIdeal.Stages

end
-- ==== Proof.KernelValue.lean ====
/-
  The kernel program's result, as whole-array maps of its arguments.

  @main is: host operations (the neighbour means of the features; the first bias as a row), the first region, host
  operations again (the neighbour means of the first region's result; three more biases as rows), the second region.
  Walking the buffer contents from boundary to boundary:
    * at the first region's entry the means array holds the shared aggregation stage of the argument arrays, the
      weights are the arguments, and the bias row's one row is the bias vector;
    * at its exit the result array holds `layer` of those (`LayerArray.final`);
    * the second stretch of host operations applies the SAME aggregation stage to that array, and leaves it and the
      arguments untouched;
    * at the second region's exit the result array holds `head` of those (`HeadArray.final`).
  The aggregation (a gather, two scatter-adds, a maximum, a quotient) is carried as the one function the reference's own
  stages name; it is never opened.
-/
import proofs.«179118_j27608049778854_1_alg».proof.Proof.Gen.KernelIdeal.Frame
import proofs.«179118_j27608049778854_1_alg».proof.Proof.LayerArray
import proofs.«179118_j27608049778854_1_alg».proof.Proof.HeadArray
import proofs.«179118_j27608049778854_1_alg».proof.Proof.RefStages
import proofs.«179118_j27608049778854_1_alg».proof.Proof.RunResult
import Idealize.ShloMosaic.Lib.StableHlo.Run
import Idealize.ShloMosaic.Lib.ValueLayout

noncomputable section

namespace Cert.KernelIdeal.WholeRun

open Cert.KernelIdeal Cert.KernelIdeal.Gen Cert.KernelIdeal.BlockValue Cert.Sage
open Cert.ReferenceIdeal.Stages (vecOf)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The neighbour means of a feature array along the edge lists: the aggregation stage both programs apply. -/
abbrev means (x : Mat 100000 128) (src dst : IVec ⟨1, ![1600000]⟩ 32) : Mat 100000 128 :=
  Cert.ReferenceIdeal.Read.val_main_v18 (F := Ideal) x src dst

/-- The first layer's result as a function of the arguments. -/
abbrev firstLayer (c : Dev nD) : Mat 100000 128 :=
  layer (R := 100000) (m ((c : Thread nD τ).loc main_arg0)) (means (m ((c : Thread nD τ).loc main_arg0)) (m ((c : Thread nD τ).loc main_arg1)) (m ((c : Thread nD τ).loc main_arg2)))
    (m ((c : Thread nD τ).loc main_arg3)) (m ((c : Thread nD τ).loc main_arg4)) (vecOf (m ((c : Thread nD τ).loc main_arg5)))

/-- The program's result as a function of the arguments. -/
abbrev wholeResult (c : Dev nD) : Mat 100000 2 :=
  head (R := 100000) (firstLayer m c) (means (firstLayer m c) (m ((c : Thread nD τ).loc main_arg1)) (m ((c : Thread nD τ).loc main_arg2)))
    (m ((c : Thread nD τ).loc main_arg6)) (m ((c : Thread nD τ).loc main_arg7)) (vecOf (m ((c : Thread nD τ).loc main_arg8))) (m ((c : Thread nD τ).loc main_arg9)) (vecOf (m ((c : Thread nD τ).loc main_arg10)))
    (m ((c : Thread nD τ).loc main_arg11)) (vecOf (m ((c : Thread nD τ).loc main_arg12)))

/-- A vector reshaped to one row has that vector as its row. -/
theorem rowOf_reshape {a : Nat} (x : FVec Ideal ⟨1, ![a]⟩ .f32) (h : (⟨1, ![a]⟩ : Shape).ShapeCasts ⟨2, ![1, a]⟩) :
    rowOf (shapeCast ⟨2, ![1, a]⟩ x h) = vecOf x :=
  funext fun j => shapeCast_a_1a_apply x h 0 j

/-! ## The first region's entry -/

theorem entry0_x (c : Dev nD) : V1 m ρ c main_arg0 = (m ((c : Thread nD τ).loc main_arg0)) := by
  show StableHlo.after hostOps0 (W0 m ρ c) (Proc.devRef .tc main_arg0) = _
  after_results
theorem entry0_wself (c : Dev nD) : V1 m ρ c main_arg3 = (m ((c : Thread nD τ).loc main_arg3)) := by
  show StableHlo.after hostOps0 (W0 m ρ c) (Proc.devRef .tc main_arg3) = _
  after_results
theorem entry0_wneigh (c : Dev nD) : V1 m ρ c main_arg4 = (m ((c : Thread nD τ).loc main_arg4)) := by
  show StableHlo.after hostOps0 (W0 m ρ c) (Proc.devRef .tc main_arg4) = _
  after_results
theorem entry0_src (c : Dev nD) : W1 m ρ c (Proc.devRef .tc main_arg1) = (m ((c : Thread nD τ).loc main_arg1)) := by
  show StableHlo.after hostOps0 (W0 m ρ c) (Proc.devRef .tc main_arg1) = _
  after_results
theorem entry0_dst (c : Dev nD) : W1 m ρ c (Proc.devRef .tc main_arg2) = (m ((c : Thread nD τ).loc main_arg2)) := by
  show StableHlo.after hostOps0 (W0 m ρ c) (Proc.devRef .tc main_arg2) = _
  after_results

set_option maxHeartbeats 4000000 in
/-- The means array at the first region's entry is the aggregation stage of the arguments. -/
theorem entry0_means (c : Dev nD) :
    V1 m ρ c main_v18 = means (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

/-- The bias row at the first region's entry has the bias vector as its row. -/
theorem entry0_bias (c : Dev nD) : rowOf (V1 m ρ c main_v19) = vecOf (m ((c : Thread nD τ).loc main_arg5)) := by
  have e : V1 m ρ c main_v19 = shapeCast S1x128 (m ((c : Thread nD τ).loc main_arg5)) shapeCasts_S128_S1x128 := by
    show StableHlo.after hostOps0 (W0 m ρ c) (Proc.devRef .tc main_v19) = _
    after_results
    rfl
  rw [e]
  exact rowOf_reshape _ _

/-! ## The first region's exit -/

/-- After the first region its result array is the first layer of the arguments. -/
theorem exit0 (c : Dev nD) : W2 m ρ c (Proc.devRef .tc main_v20) = firstLayer m c := by
  refine (W2_arr m ρ c 5).trans ((LayerArray.final (V1 m ρ) c).trans ?_)
  show layer (R := 100000) (V1 m ρ c main_arg0) (V1 m ρ c main_v18) (V1 m ρ c main_arg3) (V1 m ρ c main_arg4)
      (rowOf (V1 m ρ c main_v19)) = _
  rw [entry0_x, entry0_means, entry0_wself, entry0_wneigh, entry0_bias]

/-! ## Between the regions: what the first region and the first stretch leave of the other arguments -/

theorem mid_src (c : Dev nD) : W2 m ρ c (Proc.devRef .tc main_arg1) = (m ((c : Thread nD τ).loc main_arg1)) :=
  (W2_of_ne m ρ c main_arg1 (by decide)).trans (entry0_src m ρ c)
theorem mid_dst (c : Dev nD) : W2 m ρ c (Proc.devRef .tc main_arg2) = (m ((c : Thread nD τ).loc main_arg2)) :=
  (W2_of_ne m ρ c main_arg2 (by decide)).trans (entry0_dst m ρ c)

/-- An argument no operation of the first stretch writes and the first region does not stage is as launched. -/
theorem mid_untouched (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem mid_wself (c : Dev nD) : W2 m ρ c (Proc.devRef .tc main_arg6) = (m ((c : Thread nD τ).loc main_arg6)) :=
  mid_untouched m ρ c main_arg6 (by decide) (by after_results)
theorem mid_wneigh (c : Dev nD) : W2 m ρ c (Proc.devRef .tc main_arg7) = (m ((c : Thread nD τ).loc main_arg7)) :=
  mid_untouched m ρ c main_arg7 (by decide) (by after_results)
theorem mid_bias (c : Dev nD) : W2 m ρ c (Proc.devRef .tc main_arg8) = (m ((c : Thread nD τ).loc main_arg8)) :=
  mid_untouched m ρ c main_arg8 (by decide) (by after_results)
theorem mid_whid (c : Dev nD) : W2 m ρ c (Proc.devRef .tc main_arg9) = (m ((c : Thread nD τ).loc main_arg9)) :=
  mid_untouched m ρ c main_arg9 (by decide) (by after_results)
theorem mid_bhid (c : Dev nD) : W2 m ρ c (Proc.devRef .tc main_arg10) = (m ((c : Thread nD τ).loc main_arg10)) :=
  mid_untouched m ρ c main_arg10 (by decide) (by after_results)
theorem mid_wout (c : Dev nD) : W2 m ρ c (Proc.devRef .tc main_arg11) = (m ((c : Thread nD τ).loc main_arg11)) :=
  mid_untouched m ρ c main_arg11 (by decide) (by after_results)
theorem mid_bout (c : Dev nD) : W2 m ρ c (Proc.devRef .tc main_arg12) = (m ((c : Thread nD τ).loc main_arg12)) :=
  mid_untouched m ρ c main_arg12 (by decide) (by after_results)

/-! ## The second region's entry -/

/-- The second stretch leaves the first layer's result where it is. -/
theorem entry1_h (c : Dev nD) : V3 m ρ c main_v20 = firstLayer m c := by
  show StableHlo.after hostOps1 (W2 m ρ c) (Proc.devRef .tc main_v20) = _
  after_results
  exact exit0 m ρ c

set_option maxHeartbeats 4000000 in
/-- The means array at the second region's entry is the aggregation stage of the first layer's result. -/
theorem entry1_means (c : Dev nD) :
    V3 m ρ c main_v39 = means (firstLayer m c) (m ((c : Thread nD τ).loc main_arg1)) (m ((c : Thread nD τ).loc main_arg2)) := by
  show StableHlo.after hostOps1 (W2 m ρ c) (Proc.devRef .tc main_v39) = _
  after_results_simp
  rw [exit0, mid_src, mid_dst]
  rfl

theorem entry1_wself (c : Dev nD) : V3 m ρ c main_arg6 = (m ((c : Thread nD τ).loc main_arg6)) := by
  show StableHlo.after hostOps1 (W2 m ρ c) (Proc.devRef .tc main_arg6) = _
  after_results
  exact mid_wself m ρ c
theorem entry1_wneigh (c : Dev nD) : V3 m ρ c main_arg7 = (m ((c : Thread nD τ).loc main_arg7)) := by
  show StableHlo.after hostOps1 (W2 m ρ c) (Proc.devRef .tc main_arg7) = _
  after_results
  exact mid_wneigh m ρ c
theorem entry1_whid (c : Dev nD) : V3 m ρ c main_arg9 = (m ((c : Thread nD τ).loc main_arg9)) := by
  show StableHlo.after hostOps1 (W2 m ρ c) (Proc.devRef .tc main_arg9) = _
  after_results
  exact mid_whid m ρ c
theorem entry1_wout (c : Dev nD) : V3 m ρ c main_arg11 = (m ((c : Thread nD τ).loc main_arg11)) := by
  show StableHlo.after hostOps1 (W2 m ρ c) (Proc.devRef .tc main_arg11) = _
  after_results
  exact mid_wout m ρ c

/-- The three bias rows at the second region's entry have the bias vectors as their rows. -/
theorem entry1_bias (c : Dev nD) : rowOf (V3 m ρ c main_v40) = vecOf (m ((c : Thread nD τ).loc main_arg8)) := by
  have e : V3 m ρ c main_v40 = shapeCast S1x128 (W2 m ρ c (Proc.devRef .tc main_arg8)) shapeCasts_S128_S1x128 := by
    show StableHlo.after hostOps1 (W2 m ρ c) (Proc.devRef .tc main_v40) = _
    after_results
    rfl
  rw [e, mid_bias]
  exact rowOf_reshape _ _
theorem entry1_bhid (c : Dev nD) : rowOf (V3 m ρ c main_v41) = vecOf (m ((c : Thread nD τ).loc main_arg10)) := by
  have e : V3 m ρ c main_v41 = shapeCast S1x128 (W2 m ρ c (Proc.devRef .tc main_arg10)) shapeCasts_S128_S1x128 := by
    show StableHlo.after hostOps1 (W2 m ρ c) (Proc.devRef .tc main_v41) = _
    after_results
    rfl
  rw [e, mid_bhid]
  exact rowOf_reshape _ _
theorem entry1_bout (c : Dev nD) : rowOf (V3 m ρ c main_v42) = vecOf (m ((c : Thread nD τ).loc main_arg12)) := by
  have e : V3 m ρ c main_v42 = shapeCast S1x2 (W2 m ρ c (Proc.devRef .tc main_arg12)) shapeCasts_S2_S1x2 := by
    show StableHlo.after hostOps1 (W2 m ρ c) (Proc.devRef .tc main_v42) = _
    after_results
    rfl
  rw [e, mid_bout]
  exact rowOf_reshape _ _

/-! ## The second region's exit, and the run -/

/-- After the second region the result array is the second layer and the classifier of the first layer's result. -/
theorem exit1 (c : Dev nD) : W4 m ρ c (Proc.devRef .tc main_v43) = wholeResult m c := by
  refine (W4_arr m ρ c 9).trans ((HeadArray.final (V3 m ρ) c).trans ?_)
  show head (R := 100000) (V3 m ρ c main_v20) (V3 m ρ c main_v39) (V3 m ρ c main_arg6) (V3 m ρ c main_arg7)
      (rowOf (V3 m ρ c main_v40)) (V3 m ρ c main_arg9) (rowOf (V3 m ρ c main_v41)) (V3 m ρ c main_arg11)
      (rowOf (V3 m ρ c main_v42)) = _
  rw [entry1_h, entry1_means, entry1_wself, entry1_wneigh, entry1_bias, entry1_whid, entry1_bhid, entry1_wout, entry1_bout]

/-- Every weakly fair execution ends with the result array at `wholeResult` of the arguments, the arguments as launched. -/
theorem run : θ_run defs (onTc (τ := τ) (main (F := Ideal))) ⟨m, fun _ => 0, ρ⟩ (fun r => ∀ c : Dev nD,
      r.2.mem ((c.tc : Thread nD τ).loc main_v43) = wholeResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (exit1 m ρ c), (h c).2⟩) (run_result m ρ)

end Cert.KernelIdeal.WholeRun

end
-- ==== Proof.lean ====
/-
  A two-layer GraphSAGE node classifier, row-tiled on the accelerator, against its whole-array reference.

  Both programs compute, for features X, edge lists (src, dst) and weights,
      H   = relu (X·Wself₁ + mean(X)·Wneigh₁ + b₁)
      out = relu ((H·Wself₂ + mean(H)·Wneigh₂ + b₂)·Wc₁ + bc₁)·Wc₂ + bc₂,
  where mean(·) is the mean of each node's in-neighbours' rows (a gather along src, a scatter-add along dst, divided
  by the in-degree or one).  The reference does this with whole-array operations.  The kernel program computes the two
  means with the same host operations and does the dense part in two regions of 50 grid points, each point taking 2000
  rows; inside a region the operands are narrowed to a 16-bit format before each product, which over the extended reals
  is the identity.

  Why the two agree: every entry of a matrix product depends on one row of its left operand, so a row block of `layer`
  or of `head` (Proof/Spec.lean) is that same map of the matching row blocks; each grid point therefore writes back its
  rows of the whole-array map (Proof/LayerArray.lean, Proof/HeadArray.lean over Proof/BlockValue.lean), the blocks tile the
  rows, and the host stretches carry the arrays from one region to the next (Proof/KernelValue.lean).  The reference's
  stages read entry by entry are the same maps (Proof/RefStages.lean).  The aggregation is the same chain of host
  operations in both programs and is carried as one function.  Sums are compared term by term in the same order, so no
  hypothesis of finiteness is used.

  The three frames are the generated ones (the reference's is its run with the result dropped); the idealization rewrote
  no operation, so `preserves` is trivial.
-/
import proofs.«179118_j27608049778854_1_alg».proof.Defs
import proofs.«179118_j27608049778854_1_alg».proof.Proof.Gen.Kernel
import proofs.«179118_j27608049778854_1_alg».proof.Proof.Gen.Kernel.Skeleton
import proofs.«179118_j27608049778854_1_alg».proof.Proof.Gen.Kernel.Launch
import proofs.«179118_j27608049778854_1_alg».proof.Proof.Gen.Kernel.Points
import proofs.«179118_j27608049778854_1_alg».proof.Proof.Gen.Kernel.Frame
import proofs.«179118_j27608049778854_1_alg».proof.Proof.Gen.KernelIdeal
import proofs.«179118_j27608049778854_1_alg».proof.Proof.Gen.KernelIdeal.Skeleton
import proofs.«179118_j27608049778854_1_alg».proof.Proof.Gen.KernelIdeal.Launch
import proofs.«179118_j27608049778854_1_alg».proof.Proof.Gen.KernelIdeal.Points
import proofs.«179118_j27608049778854_1_alg».proof.Proof.Gen.KernelIdeal.Frame
import proofs.«179118_j27608049778854_1_alg».proof.Proof.Gen.ReferenceIdeal
import proofs.«179118_j27608049778854_1_alg».proof.Proof.Gen.Pre_finite_inputs
import proofs.«179118_j27608049778854_1_alg».proof.Proof.Gen.ReferenceIdeal.Run
import proofs.«179118_j27608049778854_1_alg».proof.Proof.Gen.ReferenceIdeal.Read
import proofs.«179118_j27608049778854_1_alg».proof.Proof.KernelValue
import proofs.«179118_j27608049778854_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the result array at `head` of the first layer and of its
    neighbour means, as functions of arguments that agree. -/
theorem algebraic : Cert.algebraic_KernelIdeal_ReferenceIdeal := by
  intro m ρ m' ρ' _ hagree
  refine ⟨fun c => Cert.KernelIdeal.WholeRun.wholeResult m c, Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.Stages.whole]
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
